-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x6400000 : Shape := ⟨2, ![2, 6400000]⟩
abbrev S14x32 : Shape := ⟨2, ![14, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S14x32 : S_.BroadcastsInDim S14x32 (![] : Fin 0 → Fin S14x32.rank)
  reducesTo_S14x32_S_d0_1 : S14x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S32x32 .f32) (main_arg6 : FVec F S32 .f32) (main_arg7 : FVec F S32x32 .f32) (main_arg8 : FVec F S32x2 .f32) (main_arg9 : FVec F S2 .f32) (main_v13 : IVec S_ 1) (main_v16 : IVec S14x32 1) : IVec S_ 1 :=
  let main_c_5 : IVec S_ 1 := constantI S_ 1 1#1
  let main_v17 : IVec S_ 1 := (fun x v => Host.reduce IntOp.andi x v reducesTo_S14x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_v33

def fn {F : FTy → Type} [FloatOps F] (main_arg0 : FVec F S100000x14 .f32) (main_arg1 : IVec S2x6400000 32) (main_arg2 : FVec F S14x32 .f32) (main_arg3 : FVec F S32 .f32) (main_arg4 : FVec F S14x32 .f32) (main_arg5 : FVec F S32x32 .f32) (main_arg6 : FVec F S32 .f32) (main_arg7 : FVec F S32x32 .f32) (main_arg8 : FVec F S32x2 .f32) (main_arg9 : FVec F S2 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S14x32 .f32 := Host.absf main_arg2
  let main_cst_0 : FVec F S_ .f32 := constant S_ .f32 0x7F800000#32
  let main_v5 : FVec F S14x32 .f32 := broadcastInDim S14x32 ![] bcast_S_S14x32 main_cst_0
  let main_v6 : IVec S14x32 1 := cmpf .olt main_v4 main_v5
  let main_c_1 : IVec S_ 1 := constantI S_ 1 1#1
  let main_v7 : IVec S_ 1 := (fun x v => Host.reduce IntOp.andi x v reducesTo_S14x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S14x32 .f32 := Host.absf main_arg4
  let main_cst_4 : FVec F S_ .f32 := constant S_ .f32 0x7F800000#32
  let main_v15 : FVec F S14x32 .f32 := broadcastInDim S14x32 ![] bcast_S_S14x32 main_cst_4
  let main_v16 : IVec S14x32 1 := cmpf .olt main_v14 main_v15
  fn_part1 (F := F) main_arg5 main_arg6 main_arg7 main_arg8 main_arg9 main_v13 main_v16
-- ==== Kernel.lean ====
abbrev S100000x14 : Shape := ⟨2, ![100000, 14]⟩
abbrev S2x6400000 : Shape := ⟨2, ![2, 6400000]⟩
abbrev S14x32 : Shape := ⟨2, ![14, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S6400000x14 : Shape := ⟨2, ![6400000, 14]⟩
abbrev S100000x1 : Shape := ⟨2, ![100000, 1]⟩
abbrev S1x32 : Shape := ⟨2, ![1, 32]⟩
abbrev S100000x32 : Shape := ⟨2, ![100000, 32]⟩
abbrev S10000x14 : Shape := ⟨2, ![10000, 14]⟩
abbrev S10000x32 : Shape := ⟨2, ![10000, 32]⟩
abbrev S10000 : Shape := ⟨1, ![10000]⟩
abbrev S10000x1 : Shape := ⟨2, ![10000, 1]⟩
abbrev S6400000x32 : Shape := ⟨2, ![6400000, 32]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 63
  | .vmem => 20
  | .smem => 0
  | _ => 0

abbrev bufTy : (tb : Table) → Fin (tcTables nBuf tb) → BufTy
  | .hbm, ⟨0, _⟩ => ⟨S100000x14, .f32⟩
  | .hbm, ⟨1, _⟩ => ⟨S2x6400000, .i32⟩
  | .hbm, ⟨2, _⟩ => ⟨S14x32, .f32⟩
  | .hbm, ⟨3, _⟩ => ⟨S32, .f32⟩
  | .hbm, ⟨4, _⟩ => ⟨S14x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x2, .f32⟩
  | .hbm, ⟨9, _⟩ => ⟨S2, .f32⟩
  | .hbm, ⟨10, _⟩ => ⟨S1x6400000, .i32⟩
  | .hbm, ⟨11, _⟩ => ⟨S6400000, .i32⟩
  | .hbm, ⟨12, _⟩ => ⟨S1x6400000, .i32⟩
  | .hbm, ⟨13, _⟩ => ⟨S6400000, .i32⟩
  | .hbm, ⟨14, _⟩ => ⟨S_, .f32⟩
  | .hbm, ⟨15, _⟩ => ⟨S6400000, .f32⟩
  | .hbm, ⟨16, _⟩ => ⟨S_, .f32⟩
  | .hbm, ⟨17, _⟩ => ⟨S100000, .f32⟩
  | .hbm, ⟨18, _⟩ => ⟨S6400000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x14, .f32⟩
  | .hbm, ⟨35, _⟩ => ⟨S_, .f32⟩
  | .hbm, ⟨36, _⟩ => ⟨S100000x14, .f32⟩
  | .hbm, ⟨37, _⟩ => ⟨S6400000x1, .i32⟩
  | .hbm, ⟨38, _⟩ => ⟨S100000x14, .f32⟩
  | .hbm, ⟨39, _⟩ => ⟨S100000x1, .f32⟩
  | .hbm, ⟨40, _⟩ => ⟨S100000x14, .f32⟩
  | .hbm, ⟨41, _⟩ => ⟨S100000x14, .f32⟩
  | .hbm, ⟨42, _⟩ => ⟨S1x32, .f32⟩
  | .hbm, ⟨43, _⟩ => ⟨S100000x32, .f32⟩
  | .hbm, ⟨44, _⟩ => ⟨S_, .i32⟩
  | .hbm, ⟨45, _⟩ => ⟨S6400000, .i32⟩
  | .hbm, ⟨46, _⟩ => ⟨S6400000, .i1⟩
  | .hbm, ⟨47, _⟩ => ⟨S_, .i32⟩
  | .hbm, ⟨48, _⟩ => ⟨S6400000, .i32⟩
  | .hbm, ⟨49, _⟩ => ⟨S6400000, .i32⟩
  | .hbm, ⟨50, _⟩ => ⟨S6400000, .i32⟩
  | .hbm, ⟨51, _⟩ => ⟨S6400000x1, .i32⟩
  | .hbm, ⟨52, _⟩ => ⟨S6400000x32, .f32⟩
  | .hbm, ⟨53, _⟩ => ⟨S_, .f32⟩
  | .hbm, ⟨54, _⟩ => ⟨S100000x32, .f32⟩
  | .hbm, ⟨55, _⟩ => ⟨S6400000x1, .i32⟩
  | .hbm, ⟨56, _⟩ => ⟨S100000x32, .f32⟩
  | .hbm, ⟨57, _⟩ => ⟨S100000x1, .f32⟩
  | .hbm, ⟨58, _⟩ => ⟨S100000x32, .f32⟩
  | .hbm, ⟨59, _⟩ => ⟨S100000x32, .f32⟩
  | .hbm, ⟨60, _⟩ => ⟨S1x32, .f32⟩
  | .hbm, ⟨61, _⟩ => ⟨S1x2, .f32⟩
  | .hbm, ⟨62, _⟩ => ⟨S100000x2, .f32⟩
  | .local _ .vmem, ⟨0, _⟩ => ⟨S10000x14, .f32⟩
  | .local _ .vmem, ⟨1, _⟩ => ⟨S10000x14, .f32⟩
  | .local _ .vmem, ⟨2, _⟩ => ⟨S10000x14, .f32⟩
  | .local _ .vmem, ⟨3, _⟩ => ⟨S10000x14, .f32⟩
  | .local _ .vmem, ⟨4, _⟩ => ⟨S14x32, .f32⟩
  | .local _ .vmem, ⟨5, _⟩ => ⟨S1x32, .f32⟩
  | .local _ .vmem, ⟨6, _⟩ => ⟨S14x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S32x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S14x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S100000x14 : S_.BroadcastsInDim S100000x14 (![] : Fin 0 → Fin S100000x14.rank)
  bcast_S100000_S100000x1_0 : S100000.BroadcastsInDim S100000x1 (![0] : Fin 1 → Fin S100000x1.rank)
  bcast_S100000x1_S100000x14_0_1 : S100000x1.BroadcastsInDim S100000x14 (![0, 1] : Fin 2 → Fin S100000x14.rank)
  shapeCasts_S32_S1x32 : S32.ShapeCasts S1x32
  inb_S10000x14_S10000x14_0_0 : ∀ a, (![0, 0] : Fin 2 → Nat) a + S10000x14.size a ≤ S10000x14.size a
  h_S10000x14 : 0 < S10000x14.numel
  shapeCasts_S10000x14_S10000x14 : S10000x14.ShapeCasts S10000x14
  inb_S14x32_S14x32_0_0 : ∀ a, (![0, 0] : Fin 2 → Nat) a + S14x32.size a ≤ S14x32.size a
  h_S14x32 : 0 < S14x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S2_S1x2 : S2.ShapeCasts S1x2
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S6400000x1_S6400000_n_0_0_1_wf : ScatterDims.WF S100000 S6400000x1 S6400000 [] [0] [0] 1
  gather_S100000x14_S6400000x1_S6400000x14_1_0_n_n_0_1_114_wf : GatherDims.WF S100000x14 S6400000x1 S6400000x14 [1] [0] [] [0] [] 1 ![1, 14]
  scatter_S100000x14_S6400000x1_S6400000x14_1_0_0_1_wf : ScatterDims.WF S100000x14 S6400000x1 S6400000x14 [1] [0] [0] 1
  dot_S10000x14_S14x32_S10000x32_1_0_0_1_n_n_wf : DotDims.WF S10000x14 S14x32 S10000x32 [1] [0] [0] [1] [] []
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S10000x32_S32x32_S10000x32_1_0_0_1_n_n_wf : DotDims.WF S10000x32 S32x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S100000x14.size a
  hwx0_0 : ∀ i : grid0.Coords, EltTy.bits .f32 = 32 ∨ (Rect.block (s := S100000x14) S10000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x14.size a ≤ S100000x14.size a
  hwx0_1 : ∀ i : grid0.Coords, EltTy.bits .f32 = 32 ∨ (Rect.block (s := S100000x14) S10000x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x32.size a ≤ S14x32.size a
  hwx0_2 : ∀ i : grid0.Coords, EltTy.bits .f32 = 32 ∨ (Rect.block (s := S14x32) S14x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x32.size a ≤ S14x32.size a
  hwx0_4 : ∀ i : grid0.Coords, EltTy.bits .f32 = 32 ∨ (Rect.block (s := S14x32) S14x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x2.size a ≤ S32x2.size a
  hwx1_5 : ∀ i : grid1.Coords, EltTy.bits .f32 = 32 ∨ (Rect.block (s := S32x2) S32x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x2.size a ≤ S100000x2.size a
  hwx1_7 : ∀ i : grid1.Coords, EltTy.bits .f32 = 32 ∨ (Rect.block (s := S100000x2) S10000x2.size (cc1_transform_7 i) (hinb1_7 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x14_S6400000x1_S6400000x14_1_0_n_n_0_1_114 : GatherDims S100000x14 S6400000x1 S6400000x14 where
  offsetDims := [1]
  collapsedSliceDims := [0]
  operandBatchingDims := []
  startIndicesBatchingDims := []
  startIndexMap := [0]
  indexVectorDim := 1
  sliceSizes := ![1, 14]
  wf := gather_S100000x14_S6400000x1_S6400000x14_1_0_n_n_0_1_114_wf
def scatter_S100000x14_S6400000x1_S6400000x14_1_0_0_1 : ScatterDims S100000x14 S6400000x1 S6400000x14 where
  updateWindowDims := [1]
  insertedWindowDims := [0]
  scatterDimsToOperandDims := [0]
  indexVectorDim := 1
  wf := scatter_S100000x14_S6400000x1_S6400000x14_1_0_0_1_wf
def dot_S10000x14_S14x32_S10000x32_1_0_0_1_n_n : DotDims S10000x14 S14x32 S10000x32 where
  lhsContracting := [1]
  rhsContracting := [0]
  lhsNonContracting := [0]
  rhsNonContracting := [1]
  lhsBatch := []
  rhsBatch := []
  wf := dot_S10000x14_S14x32_S10000x32_1_0_0_1_n_n_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_v24) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S14x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S14x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S10000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x14 : Shape := ⟨2, ![100000, 14]⟩
abbrev S2x6400000 : Shape := ⟨2, ![2, 6400000]⟩
abbrev S14x32 : Shape := ⟨2, ![14, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S6400000x14 : Shape := ⟨2, ![6400000, 14]⟩
abbrev S100000x1 : Shape := ⟨2, ![100000, 1]⟩
abbrev S100000x32 : Shape := ⟨2, ![100000, 32]⟩
abbrev S1x32 : Shape := ⟨2, ![1, 32]⟩
abbrev S6400000x32 : Shape := ⟨2, ![6400000, 32]⟩
abbrev S100000x2 : Shape := ⟨2, ![100000, 2]⟩
abbrev S1x2 : Shape := ⟨2, ![1, 2]⟩

abbrev nBuf : Space → Nat
  | .hbm => 100
  | .vmem => 0
  | .smem => 0
  | _ => 0

abbrev bufTy : (tb : Table) → Fin (tcTables nBuf tb) → BufTy
  | .hbm, ⟨0, _⟩ => ⟨S100000x14, .f32⟩
  | .hbm, ⟨1, _⟩ => ⟨S2x6400000, .i32⟩
  | .hbm, ⟨2, _⟩ => ⟨S14x32, .f32⟩
  | .hbm, ⟨3, _⟩ => ⟨S32, .f32⟩
  | .hbm, ⟨4, _⟩ => ⟨S14x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x2, .f32⟩
  | .hbm, ⟨9, _⟩ => ⟨S2, .f32⟩
  | .hbm, ⟨10, _⟩ => ⟨S1x6400000, .i32⟩
  | .hbm, ⟨11, _⟩ => ⟨S6400000, .i32⟩
  | .hbm, ⟨12, _⟩ => ⟨S1x6400000, .i32⟩
  | .hbm, ⟨13, _⟩ => ⟨S6400000, .i32⟩
  | .hbm, ⟨14, _⟩ => ⟨S_, .f32⟩
  | .hbm, ⟨15, _⟩ => ⟨S6400000, .f32⟩
  | .hbm, ⟨16, _⟩ => ⟨S_, .f32⟩
  | .hbm, ⟨17, _⟩ => ⟨S100000, .f32⟩
  | .hbm, ⟨18, _⟩ => ⟨S6400000x1, .i32⟩
  | .hbm, ⟨19, _⟩ => ⟨S100000, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S6400000x14, .f32⟩
  | .hbm, ⟨29, _⟩ => ⟨S_, .f32⟩
  | .hbm, ⟨30, _⟩ => ⟨S100000x14, .f32⟩
  | .hbm, ⟨31, _⟩ => ⟨S6400000x1, .i32⟩
  | .hbm, ⟨32, _⟩ => ⟨S100000x14, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x14, .f32⟩
  | .hbm, ⟨38, _⟩ => ⟨S100000x14, .f32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x32, .f32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S100000x32, .f32⟩
  | .hbm, ⟨58, _⟩ => ⟨S_, .i32⟩
  | .hbm, ⟨59, _⟩ => ⟨S6400000, .i32⟩
  | .hbm, ⟨60, _⟩ => ⟨S6400000, .i1⟩
  | .hbm, ⟨61, _⟩ => ⟨S_, .i32⟩
  | .hbm, ⟨62, _⟩ => ⟨S6400000, .i32⟩
  | .hbm, ⟨63, _⟩ => ⟨S6400000, .i32⟩
  | .hbm, ⟨64, _⟩ => ⟨S6400000, .i32⟩
  | .hbm, ⟨65, _⟩ => ⟨S6400000x1, .i32⟩
  | .hbm, ⟨66, _⟩ => ⟨S6400000x32, .f32⟩
  | .hbm, ⟨67, _⟩ => ⟨S_, .f32⟩
  | .hbm, ⟨68, _⟩ => ⟨S100000x32, .f32⟩
  | .hbm, ⟨69, _⟩ => ⟨S6400000x1, .i32⟩
  | .hbm, ⟨70, _⟩ => ⟨S100000x32, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S100000x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S100000, .f32⟩
  | .hbm, ⟨86, _⟩ => ⟨S100000x1, .f32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x2, .f32⟩
  | .hbm, ⟨97, _⟩ => ⟨S1x2, .f32⟩
  | .hbm, ⟨98, _⟩ => ⟨S100000x2, .f32⟩
  | .hbm, ⟨99, _⟩ => ⟨S100000x2, .f32⟩
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_cst : Ref sig .tc := ⟨.hbm, 93, rfl⟩
abbrev main_call1_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S100000x14 : S_.BroadcastsInDim S100000x14 (![] : Fin 0 → Fin S100000x14.rank)
  bcast_S100000_S100000x1_0 : S100000.BroadcastsInDim S100000x1 (![0] : Fin 1 → Fin S100000x1.rank)
  bcast_S100000x1_S100000x14_0_1 : S100000x1.BroadcastsInDim S100000x14 (![0, 1] : Fin 2 → Fin S100000x14.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S6400000x1_S6400000_n_0_0_1_wf : ScatterDims.WF S100000 S6400000x1 S6400000 [] [0] [0] 1
  gather_S100000x14_S6400000x1_S6400000x14_1_0_n_n_0_1_114_wf : GatherDims.WF S100000x14 S6400000x1 S6400000x14 [1] [0] [] [0] [] 1 ![1, 14]
  scatter_S100000x14_S6400000x1_S6400000x14_1_0_0_1_wf : ScatterDims.WF S100000x14 S6400000x1 S6400000x14 [1] [0] [0] 1
  dot_S100000x14_S14x32_S100000x32_1_0_0_1_n_n_wf : DotDims.WF S100000x14 S14x32 S100000x32 [1] [0] [0] [1] [] []
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x14_S6400000x1_S6400000x14_1_0_n_n_0_1_114 : GatherDims S100000x14 S6400000x1 S6400000x14 where
  offsetDims := [1]
  collapsedSliceDims := [0]
  operandBatchingDims := []
  startIndicesBatchingDims := []
  startIndexMap := [0]
  indexVectorDim := 1
  sliceSizes := ![1, 14]
  wf := gather_S100000x14_S6400000x1_S6400000x14_1_0_n_n_0_1_114_wf
def scatter_S100000x14_S6400000x1_S6400000x14_1_0_0_1 : ScatterDims S100000x14 S6400000x1 S6400000x14 where
  updateWindowDims := [1]
  insertedWindowDims := [0]
  scatterDimsToOperandDims := [0]
  indexVectorDim := 1
  wf := scatter_S100000x14_S6400000x1_S6400000x14_1_0_0_1_wf
def dot_S100000x14_S14x32_S100000x32_1_0_0_1_n_n : DotDims S100000x14 S14x32 S100000x32 where
  lhsContracting := [1]
  rhsContracting := [0]
  lhsNonContracting := [0]
  rhsNonContracting := [1]
  lhsBatch := []
  rhsBatch := []
  wf := dot_S100000x14_S14x32_S100000x32_1_0_0_1_n_n_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.SageLayers.lean ====
/-
  The two layers of the graph network as functions of whole arrays, and their rows.

  A layer takes the neighbour aggregate A and the node features X (one row per node) and returns, row by row,
      relu (y / max (‖y‖, ε)),   y = A·Wl + b + X·Wr,
  and the second layer ends with one more affine map, relu(…)·Wlin + blin. Every operation reads, in row r of its
  result, row r of its matrix operands only; so a block of rows of the operands gives the same block of rows of the
  result. The whole-array functions are written with the host's operations; the block forms with the vector unit's.
-/
import proofs.«158157_j55946243997754_1_alg».proof.Proof.LibRowLayers
import Idealize.ShloMosaic.Lib.KernelVsHost

noncomputable section

open scoped BigOperators

namespace Sage

open Idealize.ShloMosaic Idealize.ShloMosaic.ValueIdx RowLayers

/-- The shape facts the whole-array layer over M rows and n result columns cites. -/
structure WholeFacts (M n : ℕ) : Prop where
  relu : (⟨0, ![]⟩ : Shape).BroadcastsInDim ⟨2, ![M, n]⟩ ![]
  rt : (⟨2, ![M, n]⟩ : Shape).ReducesTo [1] ⟨1, ![M]⟩
  red : (⟨2, ![M, n]⟩ : Shape).Reduces [1] ⟨1, ![M]⟩
  u : 0 < (⟨0, ![]⟩ : Shape).numel
  col : (⟨1, ![M]⟩ : Shape).BroadcastsInDim ⟨2, ![M, 1]⟩ ![0]
  eps : (⟨0, ![]⟩ : Shape).BroadcastsInDim ⟨2, ![M, 1]⟩ ![]
  across : (⟨2, ![M, 1]⟩ : Shape).BroadcastsInDim ⟨2, ![M, n]⟩ ![0, 1]
  down : (⟨2, ![1, n]⟩ : Shape).BroadcastsInDim ⟨2, ![M, n]⟩ ![0, 1]

/-- The shape facts the block form over mb rows cites. -/
structure BlockFacts (mb n : ℕ) : Prop where
  red : (⟨2, ![mb, n]⟩ : Shape).Reduces [1] ⟨1, ![mb]⟩
  fmt : FKind.Formats FTy.f32
  acc : (0x00000000#32 : BitVec FTy.f32.bits) = FKind.add.neutral .f32 fmt
  col : (⟨1, ![mb]⟩ : Shape).ShapeCasts ⟨2, ![mb, 1]⟩
  across : (⟨2, ![mb, 1]⟩ : Shape).Broadcasts ⟨2, ![mb, n]⟩
  self : (⟨2, ![1, n]⟩ : Shape).ShapeCasts ⟨2, ![1, n]⟩
  down : (⟨2, ![1, n]⟩ : Shape).Broadcasts ⟨2, ![mb, n]⟩

section Whole

variable {M k n : ℕ}

/-- y = A·Wl + b + X·Wr over whole arrays, the bias given as one row. -/
abbrev affine2 (h : (⟨2, ![1, n]⟩ : Shape).BroadcastsInDim ⟨2, ![M, n]⟩ ![0, 1])
    (A X : FVec Ideal ⟨2, ![M, k]⟩ .f32) (Wl Wr : FVec Ideal ⟨2, ![k, n]⟩ .f32) (b : FVec Ideal ⟨2, ![1, n]⟩ .f32) :
    FVec Ideal ⟨2, ![M, n]⟩ .f32 :=
  addf (addf (Host.dotGeneral (DotDims.plain M k n) none A Wl) (broadcastInDim ⟨2, ![M, n]⟩ ![0, 1] h b))
    (Host.dotGeneral (DotDims.plain M k n) none X Wr)

/-- One layer: relu of the row-normalised y. -/
abbrev conv (f : WholeFacts M n) (A X : FVec Ideal ⟨2, ![M, k]⟩ .f32) (Wl Wr : FVec Ideal ⟨2, ![k, n]⟩ .f32)
    (b : FVec Ideal ⟨2, ![1, n]⟩ .f32) : FVec Ideal ⟨2, ![M, n]⟩ .f32 :=
  Whole.relu f.relu (Whole.normalize 0x2B8CBCCC#32 f.rt f.u f.col f.eps f.across (affine2 f.down A X Wl Wr b))

/-- The last layer: one more affine map after the layer, H·W + b with the bias given as one row. -/
abbrev head {p : ℕ} (h : (⟨2, ![1, p]⟩ : Shape).BroadcastsInDim ⟨2, ![M, p]⟩ ![0, 1])
    (H : FVec Ideal ⟨2, ![M, n]⟩ .f32) (W : FVec Ideal ⟨2, ![n, p]⟩ .f32) (b : FVec Ideal ⟨2, ![1, p]⟩ .f32) :
    FVec Ideal ⟨2, ![M, p]⟩ .f32 :=
  addf (Host.dotGeneral (DotDims.plain M n p) none H W) (broadcastInDim ⟨2, ![M, p]⟩ ![0, 1] h b)

end Whole

section Blocks

variable {mb M k n : ℕ} {σ : Fin mb → Fin M}

/-- The matrix unit's product of a block of rows into the zero splat against the host's product of the whole. -/
theorem Rows.dotPlain {a : FVec Ideal ⟨2, ![mb, k]⟩ .f32} {A : FVec Ideal ⟨2, ![M, k]⟩ .f32} (ha : Rows σ a A)
    (w : FVec Ideal ⟨2, ![k, n]⟩ .f32) :
    Rows σ (matmul (DotDims.plain mb k n) none a w (constant ⟨2, ![mb, n]⟩ .f32 0x00000000#32))
      (Host.dotGeneral (DotDims.plain M k n) none A w) := fun p c => by
  rw [matmul_zero_eq_dotGeneral, StackMember.dotGeneral_plain_apply, StackMember.dotGeneral_plain_apply]
  simp only [ha p]

/-- One row repeated down the block against the same row broadcast down the whole matrix. -/
theorem Rows.rowDown (hsc : (⟨2, ![1, n]⟩ : Shape).ShapeCasts ⟨2, ![1, n]⟩)
    (hbc : (⟨2, ![1, n]⟩ : Shape).Broadcasts ⟨2, ![mb, n]⟩)
    (h01 : (⟨2, ![1, n]⟩ : Shape).BroadcastsInDim ⟨2, ![M, n]⟩ ![0, 1]) (v : (⟨2, ![1, n]⟩ : Shape).Idx → EReal) :
    Rows σ (broadcastTo ⟨2, ![mb, n]⟩ (shapeCast ⟨2, ![1, n]⟩ v hsc) hbc) (broadcastInDim ⟨2, ![M, n]⟩ ![0, 1] h01 v) :=
  fun p c => by rw [broadcastTo_1b_ab_apply, shapeCast_self, rowDown_apply]

/-- y of a block of rows is the block of rows of y. -/
theorem Rows.affine2 (g : BlockFacts mb n) (h : (⟨2, ![1, n]⟩ : Shape).BroadcastsInDim ⟨2, ![M, n]⟩ ![0, 1])
    {a x : FVec Ideal ⟨2, ![mb, k]⟩ .f32} {A X : FVec Ideal ⟨2, ![M, k]⟩ .f32} (ha : Rows σ a A) (hx : Rows σ x X)
    (wl wr : FVec Ideal ⟨2, ![k, n]⟩ .f32) (b : FVec Ideal ⟨2, ![1, n]⟩ .f32) :
    Rows σ
      (addf (addf (matmul (DotDims.plain mb k n) none a wl (constant ⟨2, ![mb, n]⟩ .f32 0x00000000#32))
          (broadcastTo ⟨2, ![mb, n]⟩ (shapeCast ⟨2, ![1, n]⟩ b g.self) g.down))
        (matmul (DotDims.plain mb k n) none x wr (constant ⟨2, ![mb, n]⟩ .f32 0x00000000#32)))
      (Sage.affine2 h A X wl wr b) :=
  Rows.addf (Rows.addf (Rows.dotPlain ha wl) (Rows.rowDown g.self g.down h b)) (Rows.dotPlain hx wr)

/-- The block form of a layer: the vector unit's spelling over a block of rows. -/
abbrev convBlock (g : BlockFacts mb n) (a x : FVec Ideal ⟨2, ![mb, k]⟩ .f32) (wl wr : FVec Ideal ⟨2, ![k, n]⟩ .f32)
    (b : FVec Ideal ⟨2, ![1, n]⟩ .f32) : FVec Ideal ⟨2, ![mb, n]⟩ .f32 :=
  let y := addf (addf (matmul (DotDims.plain mb k n) none a wl (constant ⟨2, ![mb, n]⟩ .f32 0x00000000#32))
      (broadcastTo ⟨2, ![mb, n]⟩ (shapeCast ⟨2, ![1, n]⟩ b g.self) g.down))
    (matmul (DotDims.plain mb k n) none x wr (constant ⟨2, ![mb, n]⟩ .f32 0x00000000#32))
  maximumf
    (divf y (broadcastTo ⟨2, ![mb, n]⟩
      (maximumf (sqrt (shapeCast ⟨2, ![mb, 1]⟩ (multiReduction .add [1] ⟨1, ![mb]⟩ (mulf y y) 0x00000000#32 g.red g.fmt g.acc) g.col))
        (broadcast ⟨2, ![mb, 1]⟩ (Scalar.ofBits (F := Ideal) .f32 0x2B8CBCCC#32))) g.across))
    (broadcast ⟨2, ![mb, n]⟩ (Scalar.ofBits (F := Ideal) .f32 0x00000000#32))

/-- A layer of a block of rows is the block of rows of the layer. -/
theorem Rows.conv (g : BlockFacts mb n) (f : WholeFacts M n)
    {a x : FVec Ideal ⟨2, ![mb, k]⟩ .f32} {A X : FVec Ideal ⟨2, ![M, k]⟩ .f32} (ha : Rows σ a A) (hx : Rows σ x X)
    (wl wr : FVec Ideal ⟨2, ![k, n]⟩ .f32) (b : FVec Ideal ⟨2, ![1, n]⟩ .f32) :
    Rows σ (convBlock g a x wl wr b) (Sage.conv f A X wl wr b) :=
  Rows.relu f.relu (Rows.normalize 0x2B8CBCCC#32 g.red g.fmt g.acc g.col g.across f.rt f.red f.u f.col f.eps f.across
    (Rows.affine2 g f.down ha hx wl wr b))

/-- The block form of the last affine map. -/
abbrev headBlock {p : ℕ} (hsc : (⟨2, ![1, p]⟩ : Shape).ShapeCasts ⟨2, ![1, p]⟩)
    (hbc : (⟨2, ![1, p]⟩ : Shape).Broadcasts ⟨2, ![mb, p]⟩)
    (h : FVec Ideal ⟨2, ![mb, n]⟩ .f32) (w : FVec Ideal ⟨2, ![n, p]⟩ .f32) (b : FVec Ideal ⟨2, ![1, p]⟩ .f32) :
    FVec Ideal ⟨2, ![mb, p]⟩ .f32 :=
  addf (matmul (DotDims.plain mb n p) none h w (constant ⟨2, ![mb, p]⟩ .f32 0x00000000#32))
    (broadcastTo ⟨2, ![mb, p]⟩ (shapeCast ⟨2, ![1, p]⟩ b hsc) hbc)

/-- The last affine map of a block of rows is the block of rows of the map. -/
theorem Rows.head {p : ℕ} (hsc : (⟨2, ![1, p]⟩ : Shape).ShapeCasts ⟨2, ![1, p]⟩)
    (hbc : (⟨2, ![1, p]⟩ : Shape).Broadcasts ⟨2, ![mb, p]⟩)
    (h01 : (⟨2, ![1, p]⟩ : Shape).BroadcastsInDim ⟨2, ![M, p]⟩ ![0, 1])
    {h : FVec Ideal ⟨2, ![mb, n]⟩ .f32} {H : FVec Ideal ⟨2, ![M, n]⟩ .f32} (hh : Rows σ h H)
    (w : FVec Ideal ⟨2, ![n, p]⟩ .f32) (b : FVec Ideal ⟨2, ![1, p]⟩ .f32) :
    Rows σ (headBlock hsc hbc h w b) (Sage.head h01 H w b) :=
  Rows.addf (Rows.dotPlain hh w) (Rows.rowDown hsc hbc h01 b)

end Blocks

/-! ## The mean over the neighbours: a product with the reciprocal of the count against a quotient by the count -/

section Mean

variable {M k : ℕ}

/-- The count made at least one, as the host spells it. -/
abbrev atLeastOne (h1 : (⟨0, ![]⟩ : Shape).BroadcastsInDim ⟨1, ![M]⟩ ![]) (D : FVec Ideal ⟨1, ![M]⟩ .f32) :
    FVec Ideal ⟨1, ![M]⟩ .f32 :=
  maximumf D (broadcastInDim ⟨1, ![M]⟩ ![] h1 (constant (F := Ideal) ⟨0, ![]⟩ .f32 0x3F800000#32))

/-- Each row of the sums S times the reciprocal of the row's count is the row divided by the count: the count is at
    least one, so it is not zero, and a quotient by a nonzero extended real is the product with its inverse. -/
theorem mean_eq (h1 h1' : (⟨0, ![]⟩ : Shape).BroadcastsInDim ⟨1, ![M]⟩ ![])
    (hc : (⟨1, ![M]⟩ : Shape).BroadcastsInDim ⟨2, ![M, 1]⟩ ![0])
    (ha : (⟨2, ![M, 1]⟩ : Shape).BroadcastsInDim ⟨2, ![M, k]⟩ ![0, 1])
    (S : FVec Ideal ⟨2, ![M, k]⟩ .f32) (D : FVec Ideal ⟨1, ![M]⟩ .f32) :
    mulf S (broadcastInDim ⟨2, ![M, k]⟩ ![0, 1] ha (broadcastInDim ⟨2, ![M, 1]⟩ ![0] hc
        (Host.divf (broadcastInDim ⟨1, ![M]⟩ ![] h1' (constant (F := Ideal) ⟨0, ![]⟩ .f32 0x3F800000#32)) (atLeastOne h1 D))))
      = Host.divf S (broadcastInDim ⟨2, ![M, k]⟩ ![0, 1] ha (broadcastInDim ⟨2, ![M, 1]⟩ ![0] hc (atLeastOne h1 D))) := by
  funext i
  obtain ⟨r, j, rfl⟩ : ∃ (r : Fin M) (j : Fin k), i = ix2 r j := ⟨i 0, i 1, eq_ix2 i⟩
  rw [mulf_apply, RowLayers.hostDivf_apply, columnAcross_apply, columnAcross_apply, columnBroadcast_apply, columnBroadcast_apply,
    RowLayers.hostDivf_apply, scalarBroadcast_apply, Ideal.ofBits_one_f32]
  refine Ideal.mul_one_div ?_
  show max (D (ix1 r)) (broadcastInDim _ _ h1 _ (ix1 r)) ≠ 0
  rw [scalarBroadcast_apply, Ideal.ofBits_one_f32]
  exact ne_of_gt (lt_of_lt_of_le zero_lt_one (le_max_right _ _))

end Mean

end Sage

end
-- ==== Proof.SageFacts.lean ====
/-
  The shape facts of the two layers at this network's sizes: 100000 nodes in blocks of 10000 rows, 32 hidden columns.
-/
import proofs.«158157_j55946243997754_1_alg».proof.Proof.SageLayers

namespace Sage

open Idealize.ShloMosaic

theorem whole32 : WholeFacts 100000 32 := ⟨by decide, by decide, by decide, by decide, by decide, by decide, by decide, by decide⟩

theorem block32 : BlockFacts 10000 32 := ⟨by decide, .inl rfl, rfl, by decide, by decide, by decide, by decide⟩

theorem down2 : (⟨2, ![1, 2]⟩ : Shape).BroadcastsInDim ⟨2, ![100000, 2]⟩ ![0, 1] := by decide

theorem self2 : (⟨2, ![1, 2]⟩ : Shape).ShapeCasts ⟨2, ![1, 2]⟩ := by decide

theorem blockDown2 : (⟨2, ![1, 2]⟩ : Shape).Broadcasts ⟨2, ![10000, 2]⟩ := by decide

end Sage
-- ==== Proof.KRegion0.lean ====
/-
  The first layer's kernel region: what its output array holds when the region ends.

  The region walks ten blocks of 10000 rows. At block t it reads rows 10000·t … 10000·t + 9999 of the aggregate and of
  the node features, the two weight matrices and the bias row whole, and writes the same rows of the result. A layer
  reads row r of its matrix operands only, so the rows written are those rows of the layer applied to the whole arrays;
  the ten blocks tile the result, so the result array is the layer of the whole arrays.
-/
import proofs.«158157_j55946243997754_1_alg».proof.Proof.Gen.KernelIdeal.Frame
import proofs.«158157_j55946243997754_1_alg».proof.Proof.SageFacts

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open RowLayers

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows and the output are at block (t, 0), the others at (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 10000·t + p of the array. -/
def σ (t : Fin cfg0.N) : Fin 10000 → Fin 100000 := fun p =>
  ⟨t.val * 10000 + p.val, by have h := t.isLt; have e : cfg0.N = 10 := N_0; have := p.isLt; omega⟩

/-! The blocks and the arrays at their literal types. -/

abbrev aggBlk (c : Dev nD) (t : Fin cfg0.N) : FVec Ideal ⟨2, ![10000, 14]⟩ .f32 := iblk0 V c 0 t
abbrev xBlk (c : Dev nD) (t : Fin cfg0.N) : FVec Ideal ⟨2, ![10000, 14]⟩ .f32 := iblk0 V c 1 t
abbrev wlBlk (c : Dev nD) (t : Fin cfg0.N) : FVec Ideal ⟨2, ![14, 32]⟩ .f32 := iblk0 V c 2 t
abbrev bBlk (c : Dev nD) (t : Fin cfg0.N) : FVec Ideal ⟨2, ![1, 32]⟩ .f32 := iblk0 V c 3 t
abbrev wrBlk (c : Dev nD) (t : Fin cfg0.N) : FVec Ideal ⟨2, ![14, 32]⟩ .f32 := iblk0 V c 4 t
abbrev aggArr (c : Dev nD) : FVec Ideal ⟨2, ![100000, 14]⟩ .f32 := V c main_v24
abbrev xArr (c : Dev nD) : FVec Ideal ⟨2, ![100000, 14]⟩ .f32 := V c main_arg0
abbrev wlArr (c : Dev nD) : FVec Ideal ⟨2, ![14, 32]⟩ .f32 := V c main_arg2
abbrev bArr (c : Dev nD) : FVec Ideal ⟨2, ![1, 32]⟩ .f32 := V c main_v25
abbrev wrArr (c : Dev nD) : FVec Ideal ⟨2, ![14, 32]⟩ .f32 := V c main_arg4

theorem aggBlk_rows (c : Dev nD) (t : Fin cfg0.N) : Rows (σ t) (aggBlk V c t) (aggArr V c) := fun p q => by
  show V c main_v24 (((cfg0.win 0).blk t).view.emb (ix2 p q)) = V c main_v24 (ix2 (σ t p) q)
  refine congrArg _ ?_
  obtain ⟨e0, e1, -⟩ := idx t
  funext a; apply Fin.ext
  match a with
  | ⟨0, _⟩ => show win0_0.index t (0 : Fin 2) * 10000 + 1 * p.val = t.val * 10000 + p.val; rw [e0]; omega
  | ⟨1, _⟩ => show win0_0.index t (1 : Fin 2) * 14 + 1 * q.val = q.val; rw [e1]; omega

theorem xBlk_rows (c : Dev nD) (t : Fin cfg0.N) : Rows (σ t) (xBlk V c t) (xArr V c) := fun p q => by
  show V c main_arg0 (((cfg0.win 1).blk t).view.emb (ix2 p q)) = V c main_arg0 (ix2 (σ t p) q)
  refine congrArg _ ?_
  obtain ⟨-, -, e0, e1, -⟩ := idx t
  funext a; apply Fin.ext
  match a with
  | ⟨0, _⟩ => show win0_1.index t (0 : Fin 2) * 10000 + 1 * p.val = t.val * 10000 + p.val; rw [e0]; omega
  | ⟨1, _⟩ => show win0_1.index t (1 : Fin 2) * 14 + 1 * q.val = q.val; rw [e1]; omega

theorem wlBlk_eq (c : Dev nD) (t : Fin cfg0.N) : wlBlk V c t = wlArr V c := by
  funext j
  show V c main_arg2 (((cfg0.win 2).blk t).view.emb j) = V c main_arg2 j
  refine congrArg _ ?_
  obtain ⟨-, -, -, -, e0, e1, -⟩ := idx t
  funext a; apply Fin.ext
  match a with
  | ⟨0, _⟩ => show win0_2.index t (0 : Fin 2) * 14 + 1 * (j 0).val = (j 0).val; rw [e0]; omega
  | ⟨1, _⟩ => show win0_2.index t (1 : Fin 2) * 32 + 1 * (j 1).val = (j 1).val; rw [e1]; omega

theorem bBlk_eq (c : Dev nD) (t : Fin cfg0.N) : bBlk V c t = bArr V c := by
  funext j
  show V c main_v25 (((cfg0.win 3).blk t).view.emb j) = V c main_v25 j
  refine congrArg _ ?_
  obtain ⟨-, -, -, -, -, -, e0, e1, -⟩ := idx t
  funext a; apply Fin.ext
  match a with
  | ⟨0, _⟩ => show win0_3.index t (0 : Fin 2) * 1 + 1 * (j 0).val = (j 0).val; rw [e0]; omega
  | ⟨1, _⟩ => show win0_3.index t (1 : Fin 2) * 32 + 1 * (j 1).val = (j 1).val; rw [e1]; omega

theorem wrBlk_eq (c : Dev nD) (t : Fin cfg0.N) : wrBlk V c t = wrArr V c := by
  funext j
  show V c main_arg4 (((cfg0.win 4).blk t).view.emb j) = V c main_arg4 j
  refine congrArg _ ?_
  obtain ⟨-, -, -, -, -, -, -, -, e0, e1, -⟩ := idx t
  funext a; apply Fin.ext
  match a with
  | ⟨0, _⟩ => show win0_4.index t (0 : Fin 2) * 14 + 1 * (j 0).val = (j 0).val; rw [e0]; omega
  | ⟨1, _⟩ => show win0_4.index t (1 : Fin 2) * 32 + 1 * (j 1).val = (j 1).val; rw [e1]; omega

/-- The body's value is the block form of the layer (the loaded aggregate block is cast to its own shape first). -/
theorem pay_eq (a x : FVec Ideal ⟨2, ![10000, 14]⟩ .f32) (wl wr : FVec Ideal ⟨2, ![14, 32]⟩ .f32)
    (b : FVec Ideal ⟨2, ![1, 32]⟩ .f32) :
    k0_pay1 (F := Ideal) a wl b x wr = Sage.convBlock Sage.block32 a x wl wr b := by
  unfold k0_pay1
  rw [shapeCast_self a]
  rfl

/-- What point t writes back is block t of the layer of the whole arrays. -/
theorem flushed_eq (c : Dev nD) (t : Fin cfg0.N) :
    (dat0 V c).flushed 5 t = ((cfg0.win 5).blk t).view.read (Elt Ideal)
      (Sage.conv Sage.whole32 (aggArr V c) (xArr V c) (wlArr V c) (wrArr V c) (bArr V c)) := by
  show (cfg0.win 5).cut (grid0.coords t) ((dat0 V c).after 5 t) = _
  rw [after0_5]
  unfold out0_5
  rw [View.canon_unit_zero hz]
  simp only [View.ld_unit_zero (S := S10000x14) hz, View.ld_unit_zero (S := S14x32) hz, View.ld_unit_zero (S := S1x32) hz]
  funext j
  obtain ⟨p, q, rfl⟩ : ∃ (p : Fin 10000) (q : Fin 32), j = ix2 p q := ⟨j 0, j 1, eq_ix2 j⟩
  show k0_pay1 (F := Ideal) (aggBlk V c t) (wlBlk V c t) (bBlk V c t) (xBlk V c t) (wrBlk V c t) (ix2 p q)
    = Sage.conv Sage.whole32 (aggArr V c) (xArr V c) (wlArr V c) (wrArr V c) (bArr V c) (((cfg0.win 5).blk t).view.emb (ix2 p q))
  rw [pay_eq, wlBlk_eq, bBlk_eq, wrBlk_eq]
  have he : ((cfg0.win 5).blk t).view.emb (ix2 p q) = ix2 (σ t p) q := by
    obtain ⟨-, -, -, -, -, -, -, -, -, -, e0, e1⟩ := idx t
    funext a; apply Fin.ext
    match a with
    | ⟨0, _⟩ => show win0_5.index t (0 : Fin 2) * 10000 + 1 * p.val = t.val * 10000 + p.val; rw [e0]; omega
    | ⟨1, _⟩ => show win0_5.index t (1 : Fin 2) * 32 + 1 * q.val = q.val; rw [e1]; omega
  rw [he]
  exact Sage.Rows.conv Sage.block32 Sage.whole32 (aggBlk_rows V c t) (xBlk_rows V c t) (wlArr V c) (wrArr V c) (bArr V c) p q

/-- An index of the result array is in point t's block iff each coordinate is in the block's range on its axis. -/
theorem mem_blk (t : Fin cfg0.N) (i : S100000x32.Idx) :
    i ∈ ((cfg0.win 5).blk t).view.set
      ↔ ∀ a : Fin 2, win0_5.index t a * S10000x32.size a ≤ (i a).val
          ∧ (i a).val < win0_5.index t a * S10000x32.size a + S10000x32.size a := by
  show i ∈ ((View.whole main_v26).slice (win0_5.rect t)).set ↔ _
  rw [View.set_slice_whole, Rect.mem_set_unit]
  exact Iff.rfl

/-- Every row of the result is in some point's block: row r in block r / 10000. -/
theorem cover (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 10 := N_0
  have hlt : (i 0).val / 10000 < cfg0.N := by omega
  refine ⟨⟨(i 0).val / 10000, hlt⟩, flush0_5 _, ?_⟩
  rw [mem_blk]
  have e0 : win0_5.index ⟨(i 0).val / 10000, hlt⟩ (0 : Fin 2) = (i 0).val / 10000 := (idx ⟨(i 0).val / 10000, hlt⟩).2.2.2.2.2.2.2.2.2.2.1
  have e1 : win0_5.index ⟨(i 0).val / 10000, hlt⟩ (1 : Fin 2) = 0 := (idx ⟨(i 0).val / 10000, hlt⟩).2.2.2.2.2.2.2.2.2.2.2
  intro a
  match a with
  | ⟨0, _⟩ =>
    show win0_5.index _ (0 : Fin 2) * 10000 ≤ (i 0).val ∧ (i 0).val < win0_5.index _ (0 : Fin 2) * 10000 + 10000
    rw [e0]; omega
  | ⟨1, _⟩ =>
    show win0_5.index _ (1 : Fin 2) * 32 ≤ (i 1).val ∧ (i 1).val < win0_5.index _ (1 : Fin 2) * 32 + 32
    rw [e1]; omega

/-- The result array when the region ends: the first layer of the arrays the region found. -/
theorem array (c : Dev nD) :
    (dat0 V c).arrAt 5 cfg0.N
      = Sage.conv Sage.whole32 (aggArr V c) (xArr V c) (wlArr V c) (wrArr V c) (bArr V c) :=
  (dat0 V c).arrAt_eq_of_cover 5 _ (fun t _ => flushed_eq V c t) (cover)

end Cert.KernelIdeal.Region0

end
-- ==== Proof.KRegion1.lean ====
/-
  The second layer's kernel region: what its output array holds when the region ends.

  As in the first layer the region walks ten blocks of 10000 rows; at block t it reads those rows of the aggregate and
  of the first layer's result, the weight matrices and the two bias rows whole, and writes the same rows of the result:
  the layer followed by the last affine map. Both read row r of their matrix operands only, and the ten blocks tile
  the result, so the result array is the map of the layer of the whole arrays.
-/
import proofs.«158157_j55946243997754_1_alg».proof.Proof.Gen.KernelIdeal.Frame
import proofs.«158157_j55946243997754_1_alg».proof.Proof.SageFacts

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open RowLayers

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows and the output are at block (t, 0), the others at (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of block t is row 10000·t + p of the array. -/
def σ (t : Fin cfg1.N) : Fin 10000 → Fin 100000 := fun p =>
  ⟨t.val * 10000 + p.val, by have h := t.isLt; have e : cfg1.N = 10 := N_1; have := p.isLt; omega⟩

/-! The blocks and the arrays at their literal types. -/

abbrev aggBlk (c : Dev nD) (t : Fin cfg1.N) : FVec Ideal ⟨2, ![10000, 32]⟩ .f32 := iblk1 V c 0 t
abbrev hBlk (c : Dev nD) (t : Fin cfg1.N) : FVec Ideal ⟨2, ![10000, 32]⟩ .f32 := iblk1 V c 1 t
abbrev wlBlk (c : Dev nD) (t : Fin cfg1.N) : FVec Ideal ⟨2, ![32, 32]⟩ .f32 := iblk1 V c 2 t
abbrev bBlk (c : Dev nD) (t : Fin cfg1.N) : FVec Ideal ⟨2, ![1, 32]⟩ .f32 := iblk1 V c 3 t
abbrev wrBlk (c : Dev nD) (t : Fin cfg1.N) : FVec Ideal ⟨2, ![32, 32]⟩ .f32 := iblk1 V c 4 t
abbrev woBlk (c : Dev nD) (t : Fin cfg1.N) : FVec Ideal ⟨2, ![32, 2]⟩ .f32 := iblk1 V c 5 t
abbrev boBlk (c : Dev nD) (t : Fin cfg1.N) : FVec Ideal ⟨2, ![1, 2]⟩ .f32 := iblk1 V c 6 t
abbrev aggArr (c : Dev nD) : FVec Ideal ⟨2, ![100000, 32]⟩ .f32 := V c main_v39
abbrev hArr (c : Dev nD) : FVec Ideal ⟨2, ![100000, 32]⟩ .f32 := V c main_v26
abbrev wlArr (c : Dev nD) : FVec Ideal ⟨2, ![32, 32]⟩ .f32 := V c main_arg5
abbrev bArr (c : Dev nD) : FVec Ideal ⟨2, ![1, 32]⟩ .f32 := V c main_v40
abbrev wrArr (c : Dev nD) : FVec Ideal ⟨2, ![32, 32]⟩ .f32 := V c main_arg7
abbrev woArr (c : Dev nD) : FVec Ideal ⟨2, ![32, 2]⟩ .f32 := V c main_arg8
abbrev boArr (c : Dev nD) : FVec Ideal ⟨2, ![1, 2]⟩ .f32 := V c main_v41

theorem aggBlk_rows (c : Dev nD) (t : Fin cfg1.N) : Rows (σ t) (aggBlk V c t) (aggArr V c) := fun p q => by
  show V c main_v39 (((cfg1.win 0).blk t).view.emb (ix2 p q)) = V c main_v39 (ix2 (σ t p) q)
  refine congrArg _ ?_
  obtain ⟨e0, e1, -⟩ := idx t
  funext a; apply Fin.ext
  match a with
  | ⟨0, _⟩ => show win1_0.index t (0 : Fin 2) * 10000 + 1 * p.val = t.val * 10000 + p.val; rw [e0]; omega
  | ⟨1, _⟩ => show win1_0.index t (1 : Fin 2) * 32 + 1 * q.val = q.val; rw [e1]; omega

theorem hBlk_rows (c : Dev nD) (t : Fin cfg1.N) : Rows (σ t) (hBlk V c t) (hArr V c) := fun p q => by
  show V c main_v26 (((cfg1.win 1).blk t).view.emb (ix2 p q)) = V c main_v26 (ix2 (σ t p) q)
  refine congrArg _ ?_
  obtain ⟨-, -, e0, e1, -⟩ := idx t
  funext a; apply Fin.ext
  match a with
  | ⟨0, _⟩ => show win1_1.index t (0 : Fin 2) * 10000 + 1 * p.val = t.val * 10000 + p.val; rw [e0]; omega
  | ⟨1, _⟩ => show win1_1.index t (1 : Fin 2) * 32 + 1 * q.val = q.val; rw [e1]; omega

theorem wlBlk_eq (c : Dev nD) (t : Fin cfg1.N) : wlBlk V c t = wlArr V c := by
  funext j
  show V c main_arg5 (((cfg1.win 2).blk t).view.emb j) = V c main_arg5 j
  refine congrArg _ ?_
  obtain ⟨-, -, -, -, e0, e1, -⟩ := idx t
  funext a; apply Fin.ext
  match a with
  | ⟨0, _⟩ => show win1_2.index t (0 : Fin 2) * 32 + 1 * (j 0).val = (j 0).val; rw [e0]; omega
  | ⟨1, _⟩ => show win1_2.index t (1 : Fin 2) * 32 + 1 * (j 1).val = (j 1).val; rw [e1]; omega

theorem bBlk_eq (c : Dev nD) (t : Fin cfg1.N) : bBlk V c t = bArr V c := by
  funext j
  show V c main_v40 (((cfg1.win 3).blk t).view.emb j) = V c main_v40 j
  refine congrArg _ ?_
  obtain ⟨-, -, -, -, -, -, e0, e1, -⟩ := idx t
  funext a; apply Fin.ext
  match a with
  | ⟨0, _⟩ => show win1_3.index t (0 : Fin 2) * 1 + 1 * (j 0).val = (j 0).val; rw [e0]; omega
  | ⟨1, _⟩ => show win1_3.index t (1 : Fin 2) * 32 + 1 * (j 1).val = (j 1).val; rw [e1]; omega

theorem wrBlk_eq (c : Dev nD) (t : Fin cfg1.N) : wrBlk V c t = wrArr V c := by
  funext j
  show V c main_arg7 (((cfg1.win 4).blk t).view.emb j) = V c main_arg7 j
  refine congrArg _ ?_
  obtain ⟨-, -, -, -, -, -, -, -, e0, e1, -⟩ := idx t
  funext a; apply Fin.ext
  match a with
  | ⟨0, _⟩ => show win1_4.index t (0 : Fin 2) * 32 + 1 * (j 0).val = (j 0).val; rw [e0]; omega
  | ⟨1, _⟩ => show win1_4.index t (1 : Fin 2) * 32 + 1 * (j 1).val = (j 1).val; rw [e1]; omega

theorem woBlk_eq (c : Dev nD) (t : Fin cfg1.N) : woBlk V c t = woArr V c := by
  funext j
  show V c main_arg8 (((cfg1.win 5).blk t).view.emb j) = V c main_arg8 j
  refine congrArg _ ?_
  obtain ⟨-, -, -, -, -, -, -, -, -, -, e0, e1, -⟩ := idx t
  funext a; apply Fin.ext
  match a with
  | ⟨0, _⟩ => show win1_5.index t (0 : Fin 2) * 32 + 1 * (j 0).val = (j 0).val; rw [e0]; omega
  | ⟨1, _⟩ => show win1_5.index t (1 : Fin 2) * 2 + 1 * (j 1).val = (j 1).val; rw [e1]; omega

theorem boBlk_eq (c : Dev nD) (t : Fin cfg1.N) : boBlk V c t = boArr V c := by
  funext j
  show V c main_v41 (((cfg1.win 6).blk t).view.emb j) = V c main_v41 j
  refine congrArg _ ?_
  obtain ⟨-, -, -, -, -, -, -, -, -, -, -, -, e0, e1, -⟩ := idx t
  funext a; apply Fin.ext
  match a with
  | ⟨0, _⟩ => show win1_6.index t (0 : Fin 2) * 1 + 1 * (j 0).val = (j 0).val; rw [e0]; omega
  | ⟨1, _⟩ => show win1_6.index t (1 : Fin 2) * 2 + 1 * (j 1).val = (j 1).val; rw [e1]; omega

/-- The body's value is the block form of the layer and the last affine map (the two loaded row blocks are cast to
    their own shape first). -/
theorem pay_eq (a h : FVec Ideal ⟨2, ![10000, 32]⟩ .f32) (wl wr : FVec Ideal ⟨2, ![32, 32]⟩ .f32)
    (b : FVec Ideal ⟨2, ![1, 32]⟩ .f32) (wo : FVec Ideal ⟨2, ![32, 2]⟩ .f32) (bo : FVec Ideal ⟨2, ![1, 2]⟩ .f32) :
    k1_pay1 (F := Ideal) a wl b h wr wo bo
      = Sage.headBlock Sage.self2 Sage.blockDown2 (Sage.convBlock Sage.block32 a h wl wr b) wo bo := by
  unfold k1_pay1
  rw [shapeCast_self a, shapeCast_self h]
  rfl

/-- What point t writes back is block t of the map of the layer of the whole arrays. -/
theorem flushed_eq (c : Dev nD) (t : Fin cfg1.N) :
    (dat1 V c).flushed 7 t = ((cfg1.win 7).blk t).view.read (Elt Ideal)
      (Sage.head Sage.down2 (Sage.conv Sage.whole32 (aggArr V c) (hArr V c) (wlArr V c) (wrArr V c) (bArr V c))
        (woArr V c) (boArr V c)) := by
  show (cfg1.win 7).cut (grid1.coords t) ((dat1 V c).after 7 t) = _
  rw [after1_7]
  unfold out1_7
  rw [View.canon_unit_zero hz]
  simp only [View.ld_unit_zero (S := S10000x32) hz, View.ld_unit_zero (S := S32x32) hz, View.ld_unit_zero (S := S1x32) hz,
    View.ld_unit_zero (S := S32x2) hz, View.ld_unit_zero (S := S1x2) hz]
  funext j
  obtain ⟨p, q, rfl⟩ : ∃ (p : Fin 10000) (q : Fin 2), j = ix2 p q := ⟨j 0, j 1, eq_ix2 j⟩
  show k1_pay1 (F := Ideal) (aggBlk V c t) (wlBlk V c t) (bBlk V c t) (hBlk V c t) (wrBlk V c t) (woBlk V c t) (boBlk V c t) (ix2 p q)
    = Sage.head Sage.down2 (Sage.conv Sage.whole32 (aggArr V c) (hArr V c) (wlArr V c) (wrArr V c) (bArr V c))
        (woArr V c) (boArr V c) (((cfg1.win 7).blk t).view.emb (ix2 p q))
  rw [pay_eq, wlBlk_eq, bBlk_eq, wrBlk_eq, woBlk_eq, boBlk_eq]
  have he : ((cfg1.win 7).blk t).view.emb (ix2 p q) = ix2 (σ t p) q := by
    obtain ⟨-, -, -, -, -, -, -, -, -, -, -, -, -, -, e0, e1⟩ := idx t
    funext a; apply Fin.ext
    match a with
    | ⟨0, _⟩ => show win1_7.index t (0 : Fin 2) * 10000 + 1 * p.val = t.val * 10000 + p.val; rw [e0]; omega
    | ⟨1, _⟩ => show win1_7.index t (1 : Fin 2) * 2 + 1 * q.val = q.val; rw [e1]; omega
  rw [he]
  exact Sage.Rows.head Sage.self2 Sage.blockDown2 Sage.down2
    (Sage.Rows.conv Sage.block32 Sage.whole32 (aggBlk_rows V c t) (hBlk_rows V c t) (wlArr V c) (wrArr V c) (bArr V c))
    (woArr V c) (boArr V c) p q

/-- An index of the result array is in point t's block iff each coordinate is in the block's range on its axis. -/
theorem mem_blk (t : Fin cfg1.N) (i : S100000x2.Idx) :
    i ∈ ((cfg1.win 7).blk t).view.set
      ↔ ∀ a : Fin 2, win1_7.index t a * S10000x2.size a ≤ (i a).val
          ∧ (i a).val < win1_7.index t a * S10000x2.size a + S10000x2.size a := by
  show i ∈ ((View.whole main_v42).slice (win1_7.rect t)).set ↔ _
  rw [View.set_slice_whole, Rect.mem_set_unit]
  exact Iff.rfl

/-- Every row of the result is in some point's block: row r in block r / 10000. -/
theorem cover (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  have hN : cfg1.N = 10 := N_1
  have hlt : (i 0).val / 10000 < cfg1.N := by omega
  refine ⟨⟨(i 0).val / 10000, hlt⟩, flush1_7 _, ?_⟩
  rw [mem_blk]
  have e0 : win1_7.index ⟨(i 0).val / 10000, hlt⟩ (0 : Fin 2) = (i 0).val / 10000 := (idx ⟨(i 0).val / 10000, hlt⟩).2.2.2.2.2.2.2.2.2.2.2.2.2.2.1
  have e1 : win1_7.index ⟨(i 0).val / 10000, hlt⟩ (1 : Fin 2) = 0 := (idx ⟨(i 0).val / 10000, hlt⟩).2.2.2.2.2.2.2.2.2.2.2.2.2.2.2
  intro a
  match a with
  | ⟨0, _⟩ =>
    show win1_7.index _ (0 : Fin 2) * 10000 ≤ (i 0).val ∧ (i 0).val < win1_7.index _ (0 : Fin 2) * 10000 + 10000
    rw [e0]; omega
  | ⟨1, _⟩ =>
    show win1_7.index _ (1 : Fin 2) * 2 ≤ (i 1).val ∧ (i 1).val < win1_7.index _ (1 : Fin 2) * 2 + 2
    rw [e1]; omega

/-- The result array when the region ends: the last affine map of the second layer of the arrays the region found. -/
theorem array (c : Dev nD) :
    (dat1 V c).arrAt 7 cfg1.N
      = Sage.head Sage.down2 (Sage.conv Sage.whole32 (aggArr V c) (hArr V c) (wlArr V c) (wrArr V c) (bArr V c))
          (woArr V c) (boArr V c) :=
  (dat1 V c).arrAt_eq_of_cover 7 _ (fun t _ => flushed_eq V c t) (cover)

end Cert.KernelIdeal.Region1

end
-- ==== Proof.RefSide.lean ====
/-
  The reference's stages as the layers of the network.

  The reference computes, over whole arrays: the in-degree D of every node; the mean of the neighbours' features,
  the scattered sums divided row by row by max(D, 1); the first layer of that mean and the features; the same mean of
  the first layer's result; the second layer; and the last affine map. Its stages are named one operation at a time;
  here the stages of each layer are gathered into the layer's whole-array function.
-/
import proofs.«158157_j55946243997754_1_alg».proof.Proof.Gen.ReferenceIdeal.Run
import proofs.«158157_j55946243997754_1_alg».proof.Proof.Gen.ReferenceIdeal.Read
import proofs.«158157_j55946243997754_1_alg».proof.Proof.SageFacts

set_option maxRecDepth 16384

noncomputable section

namespace Cert.ReferenceIdeal.Stages

open Cert.ReferenceIdeal Cert.ReferenceIdeal.Gen Cert.ReferenceIdeal.Read
open Idealize.ShloMosaic Idealize.ShloMosaic.ValueIdx

/-- The mean of the neighbours' features: the scattered sums over the counts made at least one. -/
theorem mean1_eq (x0 : (⟨S100000x14, .f32⟩ : BufTy).Contents (Elt Ideal)) (x1 : (⟨S2x6400000, .i32⟩ : BufTy).Contents (Elt Ideal)) :
    val_main_v22 (F := Ideal) x0 x1
      = Host.divf (val_main_v17 (F := Ideal) x0 x1)
          (broadcastInDim S100000x14 ![0, 1] bcast_S100000x1_S100000x14_0_1
            (broadcastInDim S100000x1 ![0] bcast_S100000_S100000x1_0
              (Sage.atLeastOne bcast_S_S100000 (val_main_v7 (F := Ideal) x1)))) := by
  unfold val_main_v22 val_main_v21 val_main_v20 val_main_v19 val_main_v18 val_main_cst_3
  rfl

/-- The first layer's result is the layer of the mean and the features, its bias broadcast to one row. -/
theorem layer1_eq (x0 : (⟨S100000x14, .f32⟩ : BufTy).Contents (Elt Ideal)) (x1 : (⟨S2x6400000, .i32⟩ : BufTy).Contents (Elt Ideal)) (x2 : (⟨S14x32, .f32⟩ : BufTy).Contents (Elt Ideal)) (x3 : (⟨S32, .f32⟩ : BufTy).Contents (Elt Ideal)) (x4 : (⟨S14x32, .f32⟩ : BufTy).Contents (Elt Ideal)) :
    val_main_v37 (F := Ideal) x0 x1 x2 x3 x4
      = Sage.conv Sage.whole32 (val_main_v22 (F := Ideal) x0 x1) x0 x2 x4 (val_main_v24 (F := Ideal) x3) := by
  unfold val_main_v37 val_main_v36 val_main_v35 val_main_v34 val_main_v33 val_main_v32 val_main_v31 val_main_v30
    val_main_v29 val_main_v28 val_main_v27 val_main_v26 val_main_v25 val_main_v23 val_main_call0_v0 val_main_call0_cst
    val_main_cst_4 val_main_cst_5
  rfl

/-- The sums of the first layer's result over the neighbours: the gather along the sources scattered to the targets. -/
theorem sums2_eq (x0 : (⟨S100000x14, .f32⟩ : BufTy).Contents (Elt Ideal)) (x1 : (⟨S2x6400000, .i32⟩ : BufTy).Contents (Elt Ideal)) (x2 : (⟨S14x32, .f32⟩ : BufTy).Contents (Elt Ideal)) (x3 : (⟨S32, .f32⟩ : BufTy).Contents (Elt Ideal)) (x4 : (⟨S14x32, .f32⟩ : BufTy).Contents (Elt Ideal)) :
    val_main_v47 (F := Ideal) x0 x1 x2 x3 x4
      = Host.scatterAdd (F := Ideal) (φ := .f32) scatter_S100000x32_S6400000x1_S6400000x32_1_0_0_1 (val_main_v45 (F := Ideal))
          (val_main_v46 (F := Ideal) x1)
          (Host.gather (α := Ideal .f32) gather_S100000x32_S6400000x1_S6400000x32_1_0_n_n_0_1_132 (val_main_v37 (F := Ideal) x0 x1 x2 x3 x4)
            (val_main_v43 (F := Ideal) x1)) := by
  unfold val_main_v47 val_main_v44
  rfl

/-- The mean of the first layer's result over the neighbours. -/
theorem mean2_eq (x0 : (⟨S100000x14, .f32⟩ : BufTy).Contents (Elt Ideal)) (x1 : (⟨S2x6400000, .i32⟩ : BufTy).Contents (Elt Ideal)) (x2 : (⟨S14x32, .f32⟩ : BufTy).Contents (Elt Ideal)) (x3 : (⟨S32, .f32⟩ : BufTy).Contents (Elt Ideal)) (x4 : (⟨S14x32, .f32⟩ : BufTy).Contents (Elt Ideal)) :
    val_main_v52 (F := Ideal) x0 x1 x2 x3 x4
      = Host.divf (val_main_v47 (F := Ideal) x0 x1 x2 x3 x4)
          (broadcastInDim S100000x32 ![0, 1] bcast_S100000x1_S100000x32_0_1
            (broadcastInDim S100000x1 ![0] bcast_S100000_S100000x1_0
              (Sage.atLeastOne bcast_S_S100000 (val_main_v7 (F := Ideal) x1)))) := by
  unfold val_main_v52 val_main_v51 val_main_v50 val_main_v49 val_main_v48 val_main_cst_9
  rfl

/-- The result is the last affine map of the second layer of the mean and the first layer's result. -/
theorem result_eq (x0 : (⟨S100000x14, .f32⟩ : BufTy).Contents (Elt Ideal)) (x1 : (⟨S2x6400000, .i32⟩ : BufTy).Contents (Elt Ideal)) (x2 : (⟨S14x32, .f32⟩ : BufTy).Contents (Elt Ideal)) (x3 : (⟨S32, .f32⟩ : BufTy).Contents (Elt Ideal)) (x4 : (⟨S14x32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32x2, .f32⟩ : BufTy).Contents (Elt Ideal)) (x9 : (⟨S2, .f32⟩ : BufTy).Contents (Elt Ideal)) :
    val_main_v71 (F := Ideal) x0 x1 x2 x3 x4 x5 x6 x7 x8 x9
      = Sage.head Sage.down2
          (Sage.conv Sage.whole32 (val_main_v52 (F := Ideal) x0 x1 x2 x3 x4) (val_main_v37 (F := Ideal) x0 x1 x2 x3 x4) x5 x7
            (val_main_v54 (F := Ideal) x6))
          x8 (val_main_v69 (F := Ideal) x9) := by
  unfold val_main_v71 val_main_v70 val_main_v68 val_main_v67 val_main_v66 val_main_v65 val_main_v64 val_main_v63
    val_main_v62 val_main_v61 val_main_v60 val_main_v59 val_main_v58 val_main_v57 val_main_v56 val_main_v55 val_main_v53
    val_main_call1_v0 val_main_call1_cst val_main_cst_10 val_main_cst_11
  rfl

end Cert.ReferenceIdeal.Stages

end
-- ==== Proof.KValue.lean ====
/-
  The kernel program's result as the reference's stages of the launch arguments.

  The program's host operations before and between the two kernel regions are the reference's own gather, scatter and
  count, except that the mean multiplies the scattered sums by 1 / max(D, 1) where the reference divides by max(D, 1):
  the same on the extended reals, the count being at least one. Each region's array is the layer of the arrays the
  region found. Walking the buffers from the launch to the return gives the result buffer as the reference's last stage.
-/
import proofs.«158157_j55946243997754_1_alg».proof.Proof.Gen.KernelIdeal.Frame
import proofs.«158157_j55946243997754_1_alg».proof.Proof.KRegion0
import proofs.«158157_j55946243997754_1_alg».proof.Proof.KRegion1
import proofs.«158157_j55946243997754_1_alg».proof.Proof.RefSide

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem
open Cert.ReferenceIdeal.Read (val_main_v1 val_main_v3 val_main_v7 val_main_v17 val_main_v22 val_main_v24 val_main_v37
  val_main_v47 val_main_v52 val_main_v54 val_main_v69 val_main_v71)
open Cert.ReferenceIdeal (Stages.mean1_eq Stages.layer1_eq Stages.sums2_eq Stages.mean2_eq Stages.result_eq)

variable (m : (ℓ : Loc nD τ sig) → Buf (Elt Ideal) ℓ) (ρ : Dev nD → PrngReg)

/-- A vector cast to one row is the vector broadcast along the row. -/
theorem rowCast_eq_rowBroadcast {α : Type} {n : ℕ} (hsc : (⟨1, ![n]⟩ : Shape).ShapeCasts ⟨2, ![1, n]⟩)
    (h1 : (⟨1, ![n]⟩ : Shape).BroadcastsInDim ⟨2, ![1, n]⟩ ![1]) (b : (⟨1, ![n]⟩ : Shape).Idx → α) :
    shapeCast ⟨2, ![1, n]⟩ b hsc = broadcastInDim ⟨2, ![1, n]⟩ ![1] h1 b := by
  funext i
  obtain ⟨u, j, rfl⟩ : ∃ (u : Fin 1) (j : Fin n), i = ix2 u j := ⟨i 0, i 1, eq_ix2 i⟩
  rw [shapeCast_a_1a_apply, RowLayers.rowBroadcast_apply]

/-! The launch arguments at the reference's literal types. -/

abbrev a0 (c : Dev nD) : (⟨Cert.ReferenceIdeal.S100000x14, .f32⟩ : BufTy).Contents (Elt Ideal) := m ((c : Thread nD τ).loc main_arg0)
abbrev a1 (c : Dev nD) : (⟨Cert.ReferenceIdeal.S2x6400000, .i32⟩ : BufTy).Contents (Elt Ideal) := m ((c : Thread nD τ).loc main_arg1)
abbrev a2 (c : Dev nD) : (⟨Cert.ReferenceIdeal.S14x32, .f32⟩ : BufTy).Contents (Elt Ideal) := m ((c : Thread nD τ).loc main_arg2)
abbrev a3 (c : Dev nD) : (⟨Cert.ReferenceIdeal.S32, .f32⟩ : BufTy).Contents (Elt Ideal) := m ((c : Thread nD τ).loc main_arg3)
abbrev a4 (c : Dev nD) : (⟨Cert.ReferenceIdeal.S14x32, .f32⟩ : BufTy).Contents (Elt Ideal) := m ((c : Thread nD τ).loc main_arg4)
abbrev a5 (c : Dev nD) : (⟨Cert.ReferenceIdeal.S32x32, .f32⟩ : BufTy).Contents (Elt Ideal) := m ((c : Thread nD τ).loc main_arg5)
abbrev a6 (c : Dev nD) : (⟨Cert.ReferenceIdeal.S32, .f32⟩ : BufTy).Contents (Elt Ideal) := m ((c : Thread nD τ).loc main_arg6)
abbrev a7 (c : Dev nD) : (⟨Cert.ReferenceIdeal.S32x32, .f32⟩ : BufTy).Contents (Elt Ideal) := m ((c : Thread nD τ).loc main_arg7)
abbrev a8 (c : Dev nD) : (⟨Cert.ReferenceIdeal.S32x2, .f32⟩ : BufTy).Contents (Elt Ideal) := m ((c : Thread nD τ).loc main_arg8)
abbrev a9 (c : Dev nD) : (⟨Cert.ReferenceIdeal.S2, .f32⟩ : BufTy).Contents (Elt Ideal) := m ((c : Thread nD τ).loc main_arg9)

/-! ## The first region's operands -/

/-- The aggregate the first region finds is the reference's mean of the neighbours' features. -/
theorem agg1 (c : Dev nD) : Region0.aggArr (V1 m ρ) c = val_main_v22 (F := Ideal) (a0 m c) (a1 m c) := by
  show StableHlo.after hostOps0 (W0 m ρ c) (Proc.devRef .tc main_v24) = _
  after_results_simp
  rw [Stages.mean1_eq]
  exact Sage.mean_eq _ _ _ _ _ _

theorem x1 (c : Dev nD) : Region0.xArr (V1 m ρ) c = a0 m c := by
  show StableHlo.after hostOps0 (W0 m ρ c) (Proc.devRef .tc main_arg0) = _
  after_results

theorem wl1 (c : Dev nD) : Region0.wlArr (V1 m ρ) c = a2 m c := by
  show StableHlo.after hostOps0 (W0 m ρ c) (Proc.devRef .tc main_arg2) = _
  after_results

theorem wr1 (c : Dev nD) : Region0.wrArr (V1 m ρ) c = a4 m c := by
  show StableHlo.after hostOps0 (W0 m ρ c) (Proc.devRef .tc main_arg4) = _
  after_results

theorem b1 (c : Dev nD) : Region0.bArr (V1 m ρ) c = val_main_v24 (F := Ideal) (a3 m c) := by
  show StableHlo.after hostOps0 (W0 m ρ c) (Proc.devRef .tc main_v25) = _
  after_results
  exact rowCast_eq_rowBroadcast _ _ _

/-- The first region leaves the reference's first layer in its result buffer. -/
theorem h1 (c : Dev nD) : W2 m ρ c (Proc.devRef .tc main_v26) = val_main_v37 (F := Ideal) (a0 m c) (a1 m c) (a2 m c) (a3 m c) (a4 m c) := by
  refine (W2_arr m ρ c 5).trans ?_
  rw [Region0.array (V1 m ρ) c, agg1 m ρ c, x1 m ρ c, wl1 m ρ c, wr1 m ρ c, b1 m ρ c, ← Stages.layer1_eq]

/-! ## What the host operations between the regions read of the first stretch's values -/

theorem w2_v1 (c : Dev nD) : W2 m ρ c (Proc.devRef .tc main_v1) = val_main_v1 (F := Ideal) (a1 m c) := by
  rw [W2_of_ne m ρ c main_v1 (by decide)]
  show StableHlo.after hostOps0 (W0 m ρ c) (Proc.devRef .tc main_v1) = _
  after_results; rfl

theorem w2_v3 (c : Dev nD) : W2 m ρ c (Proc.devRef .tc main_v3) = val_main_v3 (F := Ideal) (a1 m c) := by
  rw [W2_of_ne m ρ c main_v3 (by decide)]
  show StableHlo.after hostOps0 (W0 m ρ c) (Proc.devRef .tc main_v3) = _
  after_results; rfl

/-- The reciprocal of the count made at least one. -/
theorem w2_v11 (c : Dev nD) : W2 m ρ c (Proc.devRef .tc main_v11)
    = Host.divf (broadcastInDim S100000 ![] bcast_S_S100000 (constant (F := Ideal) S_ .f32 0x3F800000#32))
        (Sage.atLeastOne bcast_S_S100000 (val_main_v7 (F := Ideal) (a1 m c))) := by
  rw [W2_of_ne m ρ c main_v11 (by decide)]
  show StableHlo.after hostOps0 (W0 m ρ c) (Proc.devRef .tc main_v11) = _
  after_results; rfl

theorem w2_arg (b : Ref sig .tc) (hb : ∀ w, Pipeline.arrRef spec0 w ≠ b) (c : Dev nD) :
    W2 m ρ c (Proc.devRef .tc b) = StableHlo.after hostOps0 (W0 m ρ c) (Proc.devRef .tc b) :=
  W2_of_ne m ρ c b hb

/-! ## The second region's operands -/

/-- The aggregate the second region finds is the reference's mean of the first layer's result over the neighbours. -/
theorem agg2 (c : Dev nD) : Region1.aggArr (V3 m ρ) c = val_main_v52 (F := Ideal) (a0 m c) (a1 m c) (a2 m c) (a3 m c) (a4 m c) := by
  show StableHlo.after hostOps1 (W2 m ρ c) (Proc.devRef .tc main_v39) = _
  after_results
  rw [h1 m ρ c, w2_v1 m ρ c, w2_v3 m ρ c, w2_v11 m ρ c, Stages.mean2_eq, Stages.sums2_eq]
  exact Sage.mean_eq _ _ _ _ _ _

theorem h2 (c : Dev nD) : Region1.hArr (V3 m ρ) c = val_main_v37 (F := Ideal) (a0 m c) (a1 m c) (a2 m c) (a3 m c) (a4 m c) := by
  show StableHlo.after hostOps1 (W2 m ρ c) (Proc.devRef .tc main_v26) = _
  after_results
  exact h1 m ρ c

theorem wl2 (c : Dev nD) : Region1.wlArr (V3 m ρ) c = a5 m c := by
  show StableHlo.after hostOps1 (W2 m ρ c) (Proc.devRef .tc main_arg5) = _
  after_results
  rw [w2_arg m ρ main_arg5 (by decide) c]
  after_results

theorem wr2 (c : Dev nD) : Region1.wrArr (V3 m ρ) c = a7 m c := by
  show StableHlo.after hostOps1 (W2 m ρ c) (Proc.devRef .tc main_arg7) = _
  after_results
  rw [w2_arg m ρ main_arg7 (by decide) c]
  after_results

theorem wo2 (c : Dev nD) : Region1.woArr (V3 m ρ) c = a8 m c := by
  show StableHlo.after hostOps1 (W2 m ρ c) (Proc.devRef .tc main_arg8) = _
  after_results
  rw [w2_arg m ρ main_arg8 (by decide) c]
  after_results

theorem b2 (c : Dev nD) : Region1.bArr (V3 m ρ) c = val_main_v54 (F := Ideal) (a6 m c) := by
  show StableHlo.after hostOps1 (W2 m ρ c) (Proc.devRef .tc main_v40) = _
  after_results
  rw [w2_arg m ρ main_arg6 (by decide) c]
  after_results
  exact rowCast_eq_rowBroadcast _ _ _

theorem bo2 (c : Dev nD) : Region1.boArr (V3 m ρ) c = val_main_v69 (F := Ideal) (a9 m c) := by
  show StableHlo.after hostOps1 (W2 m ρ c) (Proc.devRef .tc main_v41) = _
  after_results
  rw [w2_arg m ρ main_arg9 (by decide) c]
  after_results
  exact rowCast_eq_rowBroadcast _ _ _

/-- The result buffer at the return holds the reference's last stage of the launch arguments. -/
theorem result (c : Dev nD) : W4 m ρ c (Proc.devRef .tc main_v42) = val_main_v71 (F := Ideal) (a0 m c) (a1 m c) (a2 m c) (a3 m c) (a4 m c) (a5 m c) (a6 m c) (a7 m c) (a8 m c) (a9 m c) := by
  refine (W4_arr m ρ c 7).trans ?_
  rw [Region1.array (V3 m ρ) c, agg2 m ρ c, h2 m ρ c, wl2 m ρ c, wr2 m ρ c, b2 m ρ c, wo2 m ρ c, bo2 m ρ c,
    ← Stages.result_eq]

end Cert.KernelIdeal.Net

end
-- ==== Proof.lean ====
/-
  Two layers of a graph network on 100000 nodes and 6.4 million edges, the dense part of each layer in a kernel region
  over ten blocks of 10000 rows, against the same network written with whole-array operations.

  Both programs count each node's incoming edges, D, gather the features along the edges' sources and add them up at
  the targets, and take the mean by max(D, 1); a layer is relu (y / max (‖y‖, ε)) row by row with
  y = mean·Wl + b + x·Wr, and the network ends with relu(…)·Wlin + blin. They differ in two ways. The kernel program
  multiplies the sums by 1 / max(D, 1) where the reference divides by max(D, 1): on the extended reals a quotient by a
  nonzero y is the product with the inverse of y, and max(D, 1) is at least one, so the two agree whatever the sums are;
  no finiteness is used. And the kernel computes a layer block of rows by block of rows with the vector unit's
  operations: every operation of a layer reads row r of its matrix operands only, and a sum over a row of products is
  the same sum in both spellings, so each block is the same rows of the whole-array layer, and the ten blocks tile the
  result. The result buffer of the kernel program is therefore the reference's last stage as a function of the launch
  arguments; the reference's run ends at that stage of its own arguments, which agree.
-/
import proofs.«158157_j55946243997754_1_alg».proof.Defs
import proofs.«158157_j55946243997754_1_alg».proof.Proof.Gen.Kernel
import proofs.«158157_j55946243997754_1_alg».proof.Proof.Gen.Kernel.Skeleton
import proofs.«158157_j55946243997754_1_alg».proof.Proof.Gen.Kernel.Launch
import proofs.«158157_j55946243997754_1_alg».proof.Proof.Gen.Kernel.Points
import proofs.«158157_j55946243997754_1_alg».proof.Proof.Gen.Kernel.Frame
import proofs.«158157_j55946243997754_1_alg».proof.Proof.Gen.KernelIdeal
import proofs.«158157_j55946243997754_1_alg».proof.Proof.Gen.KernelIdeal.Skeleton
import proofs.«158157_j55946243997754_1_alg».proof.Proof.Gen.KernelIdeal.Launch
import proofs.«158157_j55946243997754_1_alg».proof.Proof.Gen.KernelIdeal.Points
import proofs.«158157_j55946243997754_1_alg».proof.Proof.Gen.KernelIdeal.Frame
import proofs.«158157_j55946243997754_1_alg».proof.Proof.Gen.ReferenceIdeal
import proofs.«158157_j55946243997754_1_alg».proof.Proof.Gen.ReferenceIdeal.Run
import proofs.«158157_j55946243997754_1_alg».proof.Proof.Gen.ReferenceIdeal.Read
import proofs.«158157_j55946243997754_1_alg».proof.Proof.Gen.Pre_finite_inputs
import proofs.«158157_j55946243997754_1_alg».proof.Proof.KRun
import proofs.«158157_j55946243997754_1_alg».proof.Proof.KValue
import proofs.«158157_j55946243997754_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the reference's last stage of the kernel program's launch arguments in the result buffer. -/
theorem algebraic : Cert.algebraic_KernelIdeal_ReferenceIdeal := by
  intro m ρ m' ρ' _ hagree
  refine ⟨fun c => Cert.ReferenceIdeal.Read.val_main_v71 (F := Ideal) (Cert.KernelIdeal.Net.a0 m c) (Cert.KernelIdeal.Net.a1 m c) (Cert.KernelIdeal.Net.a2 m c) (Cert.KernelIdeal.Net.a3 m c) (Cert.KernelIdeal.Net.a4 m c) (Cert.KernelIdeal.Net.a5 m c) (Cert.KernelIdeal.Net.a6 m c) (Cert.KernelIdeal.Net.a7 m c) (Cert.KernelIdeal.Net.a8 m c) (Cert.KernelIdeal.Net.a9 m c), ?_, ?_⟩
  · exact (θ_run Cert.KernelIdeal.defs _ _).mono
      (fun r h c => ⟨(h c).1.trans (Cert.KernelIdeal.Net.result m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v71_eq]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
